-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S512x16x16x512 : Shape := ⟨4, ![512, 16, 16, 512]⟩
abbrev S512 : Shape := ⟨1, ![512]⟩
abbrev S512x16x16 : Shape := ⟨3, ![512, 16, 16]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S512x16x16x512 : S_.BroadcastsInDim S512x16x16x512 (![] : Fin 0 → Fin S512x16x16x512.rank)
  reducesTo_S512x16x16x512_S_d0_1_2_3 : S512x16x16x512.ReducesTo [0, 1, 2, 3] S_
  bcast_S_S512 : S_.BroadcastsInDim S512 (![] : Fin 0 → Fin S512.rank)
  reducesTo_S512_S_d0 : S512.ReducesTo [0] S_
  bcast_S_S512x16x16 : S_.BroadcastsInDim S512x16x16 (![] : Fin 0 → Fin S512x16x16.rank)
  reducesTo_S512x16x16_S_d0_1_2 : S512x16x16.ReducesTo [0, 1, 2] S_

variable [Facts]

def fn_part1 {F : FTy → Type} [FloatOps F] (main_v13 : IVec S_ 1) (main_v16 : IVec S512x16x16 1) : IVec S_ 1 :=
  let main_c_5 : IVec S_ 1 := constantI S_ 1 1#1
  let main_v17 : IVec S_ 1 := (fun x v => Host.reduce IntOp.andi x v reducesTo_S512x16x16_S_d0_1_2 h_S_) main_v16 main_c_5
  let main_v18 : IVec S_ 1 := andi main_v13 main_v17
  main_v18

def fn {F : FTy → Type} [FloatOps F] (main_arg0 : FVec F S32x512 .f32) (main_arg1 : FVec F S512x16x16x512 .f32) (main_arg2 : FVec F S512 .f32) (main_arg3 : FVec F S512x16x16 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S512x16x16x512 .f32 := Host.absf main_arg1
  let main_cst_0 : FVec F S_ .f32 := constant S_ .f32 0x7F800000#32
  let main_v5 : FVec F S512x16x16x512 .f32 := broadcastInDim S512x16x16x512 ![] bcast_S_S512x16x16x512 main_cst_0
  let main_v6 : IVec S512x16x16x512 1 := cmpf .olt main_v4 main_v5
  let main_c_1 : IVec S_ 1 := constantI S_ 1 1#1
  let main_v7 : IVec S_ 1 := (fun x v => Host.reduce IntOp.andi x v reducesTo_S512x16x16x512_S_d0_1_2_3 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x16x16 .f32 := Host.absf main_arg3
  let main_cst_4 : FVec F S_ .f32 := constant S_ .f32 0x7F800000#32
  let main_v15 : FVec F S512x16x16 .f32 := broadcastInDim S512x16x16 ![] bcast_S_S512x16x16 main_cst_4
  let main_v16 : IVec S512x16x16 1 := cmpf .olt main_v14 main_v15
  fn_part1 (F := F) main_v13 main_v16
-- ==== Kernel.lean ====
abbrev S32x512 : Shape := ⟨2, ![32, 512]⟩
abbrev S512x16x16x512 : Shape := ⟨4, ![512, 16, 16, 512]⟩
abbrev S512 : Shape := ⟨1, ![512]⟩
abbrev S512x16x16 : Shape := ⟨3, ![512, 16, 16]⟩
abbrev S_ : Shape := ⟨0, ![]⟩
abbrev S1x512 : Shape := ⟨2, ![1, 512]⟩
abbrev S131072x512 : Shape := ⟨2, ![131072, 512]⟩
abbrev S1x131072 : Shape := ⟨2, ![1, 131072]⟩
abbrev S32x131072 : Shape := ⟨2, ![32, 131072]⟩
abbrev S4096x512 : Shape := ⟨2, ![4096, 512]⟩
abbrev S1x4096 : Shape := ⟨2, ![1, 4096]⟩
abbrev S32x4096 : Shape := ⟨2, ![32, 4096]⟩
abbrev S32x512x16x16 : Shape := ⟨4, ![32, 512, 16, 16]⟩

abbrev nBuf : Space → Nat
  | .hbm => 14
  | .vmem => 7
  | .smem => 0
  | _ => 0

abbrev bufTy : (tb : Table) → Fin (tcTables nBuf tb) → BufTy
  | .hbm, ⟨0, _⟩ => ⟨S32x512, .f32⟩
  | .hbm, ⟨1, _⟩ => ⟨S512x16x16x512, .f32⟩
  | .hbm, ⟨2, _⟩ => ⟨S512, .f32⟩
  | .hbm, ⟨3, _⟩ => ⟨S512x16x16, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S32x512, .f32⟩
  | .hbm, ⟨9, _⟩ => ⟨S32x512, .f32⟩
  | .hbm, ⟨10, _⟩ => ⟨S131072x512, .f32⟩
  | .hbm, ⟨11, _⟩ => ⟨S1x131072, .f32⟩
  | .hbm, ⟨12, _⟩ => ⟨S32x131072, .f32⟩
  | .hbm, ⟨13, _⟩ => ⟨S32x512x16x16, .f32⟩
  | .local _ .vmem, ⟨0, _⟩ => ⟨S32x512, .f32⟩
  | .local _ .vmem, ⟨1, _⟩ => ⟨S4096x512, .f32⟩
  | .local _ .vmem, ⟨2, _⟩ => ⟨S4096x512, .f32⟩
  | .local _ .vmem, ⟨3, _⟩ => ⟨S1x4096, .f32⟩
  | .local _ .vmem, ⟨4, _⟩ => ⟨S1x4096, .f32⟩
  | .local _ .vmem, ⟨5, _⟩ => ⟨S32x4096, .f32⟩
  | .local _ .vmem, ⟨6, _⟩ => ⟨S32x4096, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  shapeCasts_S512x16x16x512_S131072x512 : S512x16x16x512.ShapeCasts S131072x512
  shapeCasts_S512x16x16_S1x131072 : S512x16x16.ShapeCasts S1x131072
  inb_S32x512_S32x512_0_0 : ∀ a, (![0, 0] : Fin 2 → Nat) a + S32x512.size a ≤ S32x512.size a
  h_S32x512 : 0 < S32x512.numel
  shapeCasts_S32x512_S32x512 : S32x512.ShapeCasts S32x512
  bitsLt_bf16_f32 : FTy.bits .bf16 < FTy.bits .f32
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S32x4096 : S1x4096.Broadcasts S32x4096
  inb_S32x4096_S32x4096_0_0 : ∀ a, (![0, 0] : Fin 2 → Nat) a + S32x4096.size a ≤ S32x4096.size a
  h_S32x4096 : 0 < S32x4096.numel
  shapeCasts_S32x131072_S32x512x16x16 : S32x131072.ShapeCasts S32x512x16x16
  dot_S32x512_S4096x512_S32x4096_1_1_0_0_n_n_wf : DotDims.WF S32x512 S4096x512 S32x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S32x512.size a
  hwx0_0 : ∀ i : grid0.Coords, EltTy.bits .f32 = 32 ∨ (Rect.block (s := S32x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S131072x512.size a
  hwx0_1 : ∀ i : grid0.Coords, EltTy.bits .f32 = 32 ∨ (Rect.block (s := S131072x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x131072.size a
  hwx0_2 : ∀ i : grid0.Coords, EltTy.bits .f32 = 32 ∨ (Rect.block (s := S1x131072) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x4096.size a ≤ S32x131072.size a
  hwx0_3 : ∀ i : grid0.Coords, EltTy.bits .f32 = 32 ∨ (Rect.block (s := S32x131072) S32x4096.size (cc0_transform_3 i) (hinb0_3 i)).WholeWords (EltTy.packing .f32)

variable [Facts₀]

def dot_S32x512_S4096x512_S32x4096_1_1_0_0_n_n : DotDims S32x512 S4096x512 S32x4096 where
  lhsContracting := [1]
  rhsContracting := [1]
  lhsNonContracting := [0]
  rhsNonContracting := [0]
  lhsBatch := []
  rhsBatch := []
  wf := dot_S32x512_S4096x512_S32x4096_1_1_0_0_n_n_wf

abbrev win0_0 : Pipeline.Window sig grid0 :=
  Pipeline.Window.ofSpec (Memref.whole main_v4) S32x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S32x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512 : Shape := ⟨2, ![32, 512]⟩
abbrev S512x16x16x512 : Shape := ⟨4, ![512, 16, 16, 512]⟩
abbrev S512 : Shape := ⟨1, ![512]⟩
abbrev S512x16x16 : Shape := ⟨3, ![512, 16, 16]⟩
abbrev S_ : Shape := ⟨0, ![]⟩
abbrev S1x512 : Shape := ⟨2, ![1, 512]⟩
abbrev S32x512x16x16 : Shape := ⟨4, ![32, 512, 16, 16]⟩
abbrev S1x512x16x16 : Shape := ⟨4, ![1, 512, 16, 16]⟩

abbrev nBuf : Space → Nat
  | .hbm => 14
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S512x16x16x512, .f32⟩
  | .hbm, ⟨2, _⟩ => ⟨S512, .f32⟩
  | .hbm, ⟨3, _⟩ => ⟨S512x16x16, .f32⟩
  | .hbm, ⟨4, _⟩ => ⟨S_, .f32⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S32x512, .f32⟩
  | .hbm, ⟨9, _⟩ => ⟨S32x512, .f32⟩
  | .hbm, ⟨10, _⟩ => ⟨S32x512x16x16, .f32⟩
  | .hbm, ⟨11, _⟩ => ⟨S1x512x16x16, .f32⟩
  | .hbm, ⟨12, _⟩ => ⟨S32x512x16x16, .f32⟩
  | .hbm, ⟨13, _⟩ => ⟨S32x512x16x16, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S512 : S_.BroadcastsInDim S512 (![] : Fin 0 → Fin S512.rank)
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S512x16x16_S1x512x16x16_1_2_3 : S512x16x16.BroadcastsInDim S1x512x16x16 (![1, 2, 3] : Fin 3 → Fin S1x512x16x16.rank)
  bcast_S1x512x16x16_S32x512x16x16_0_1_2_3 : S1x512x16x16.BroadcastsInDim S32x512x16x16 (![0, 1, 2, 3] : Fin 4 → Fin S32x512x16x16.rank)
  dot_S32x512_S512x16x16x512_S32x512x16x16_1_3_0_012_n_n_wf : DotDims.WF S32x512 S512x16x16x512 S32x512x16x16 [1] [3] [0] [0, 1, 2] [] []

variable [Facts₀]

def dot_S32x512_S512x16x16x512_S32x512x16x16_1_3_0_012_n_n : DotDims S32x512 S512x16x16x512 S32x512x16x16 where
  lhsContracting := [1]
  rhsContracting := [3]
  lhsNonContracting := [0]
  rhsNonContracting := [0, 1, 2]
  lhsBatch := []
  rhsBatch := []
  wf := dot_S32x512_S512x16x16x512_S32x512x16x16_1_3_0_012_n_n_wf

class Facts : Prop extends Facts₀ where

variable [Facts]
-- ==== Proof.KernelBlock.lean ====
/-
  One block of the kernel's result, read at an entry.

  At a grid point the body loads the whole scaled-style block `s` (32 × 512), a block `u` of 4096 rows of the flattened
  weight table (4096 × 512) and the matching block `b` of the flattened bias row (1 × 4096), and stores
  `s · uᵀ + b` (32 × 4096): the matrix product contracts the SECOND axis of both operands into a zero accumulator, and the
  bias row is repeated down the 32 rows. At the exact instance the two narrowing casts before the product are the identity,
  so entry (p, q) of the stored block is  ∑ₖ s(p, k) · u(q, k) + b(0, q).
-/
import proofs.«116141_j60309930770489_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Idealize.ShloMosaic Idealize.ShloMosaic.ValueIdx Cert.KernelIdeal Cert.KernelIdeal.Gen

/-! ## Where the product's operands are read -/

/-- The left operand's kept axis (its first) reads the entry's row. -/
theorem lhs_axis0 (i : S32x4096.Idx) (q : dot_S32x512_S4096x512_S32x4096_1_1_0_0_n_n.contr.Idx) :
    (dot_S32x512_S4096x512_S32x4096_1_1_0_0_n_n.lhsIdx i q 0).val = (i 0).val := by
  unfold DotDims.lhsIdx
  rw [dif_neg (show ¬(0 : Fin S32x512.rank) ∈ dot_S32x512_S4096x512_S32x4096_1_1_0_0_n_n.lhsBatch by decide), dif_pos (show (0 : Fin S32x512.rank) ∈ dot_S32x512_S4096x512_S32x4096_1_1_0_0_n_n.lhsNonContracting by decide)]
  rfl
/-- Its contracted axis (its second) reads the contraction position. -/
theorem lhs_axis1 (i : S32x4096.Idx) (q : dot_S32x512_S4096x512_S32x4096_1_1_0_0_n_n.contr.Idx) :
    (dot_S32x512_S4096x512_S32x4096_1_1_0_0_n_n.lhsIdx i q 1).val = (q ⟨0, by decide⟩).val :=
  dot_S32x512_S4096x512_S32x4096_1_1_0_0_n_n.lhsIdx_val_of_single rfl i q
/-- The right operand's kept axis (its first) reads the entry's column. -/
theorem rhs_axis0 (i : S32x4096.Idx) (q : dot_S32x512_S4096x512_S32x4096_1_1_0_0_n_n.contr.Idx) :
    (dot_S32x512_S4096x512_S32x4096_1_1_0_0_n_n.rhsIdx i q 0).val = (i 1).val := by
  unfold DotDims.rhsIdx
  rw [dif_neg (show ¬(0 : Fin S4096x512.rank) ∈ dot_S32x512_S4096x512_S32x4096_1_1_0_0_n_n.rhsBatch by decide), dif_pos (show (0 : Fin S4096x512.rank) ∈ dot_S32x512_S4096x512_S32x4096_1_1_0_0_n_n.rhsNonContracting by decide)]
  rfl
/-- Its contracted axis (its second) reads the contraction position. -/
theorem rhs_axis1 (i : S32x4096.Idx) (q : dot_S32x512_S4096x512_S32x4096_1_1_0_0_n_n.contr.Idx) :
    (dot_S32x512_S4096x512_S32x4096_1_1_0_0_n_n.rhsIdx i q 1).val = (q ⟨0, by decide⟩).val :=
  dot_S32x512_S4096x512_S32x4096_1_1_0_0_n_n.rhsIdx_val_of_single rfl i q

/-- The product into the zero accumulator at entry (p, q): the sum over k of s(p, k) · u(q, k). -/
theorem product_apply (s : FVec Ideal S32x512 .bf16) (u : FVec Ideal S4096x512 .bf16) (p : Fin 32) (q : Fin 4096) :
    matmul dot_S32x512_S4096x512_S32x4096_1_1_0_0_n_n none s u (constant S32x4096 .f32 0x00000000#32) (ix2 p q)
      = ∑ k : Fin 512, s (ix2 p k) * u (ix2 q k) := by
  simp only [matmul]
  rw [Ideal.matmul_constant_zero_apply, ← Equiv.sum_comp (contrEquiv1 dot_S32x512_S4096x512_S32x4096_1_1_0_0_n_n 512 rfl rfl).symm]
  refine Finset.sum_congr rfl fun k _ => ?_
  have hk := contrEquiv1_symm_val dot_S32x512_S4096x512_S32x4096_1_1_0_0_n_n 512 rfl rfl k
  have el : dot_S32x512_S4096x512_S32x4096_1_1_0_0_n_n.lhsIdx (ix2 p q) ((contrEquiv1 dot_S32x512_S4096x512_S32x4096_1_1_0_0_n_n 512 rfl rfl).symm k) = ix2 p k := funext fun a => Fin.ext (by
    match a with
    | ⟨0, _⟩ => exact lhs_axis0 _ _
    | ⟨1, _⟩ => exact (lhs_axis1 _ _).trans hk)
  have er : dot_S32x512_S4096x512_S32x4096_1_1_0_0_n_n.rhsIdx (ix2 p q) ((contrEquiv1 dot_S32x512_S4096x512_S32x4096_1_1_0_0_n_n 512 rfl rfl).symm k) = ix2 q k := funext fun a => Fin.ext (by
    match a with
    | ⟨0, _⟩ => exact rhs_axis0 _ _
    | ⟨1, _⟩ => exact (rhs_axis1 _ _).trans hk)
  rw [el, er]

/-- The bias row repeated down the rows: entry (p, q) is the row's entry (0, q). -/
theorem bias_apply (b : FVec Ideal S1x4096 .f32) (p : Fin 32) (q : Fin 4096) :
    broadcastTo S32x4096 b broadcasts_S1x4096_S32x4096 (ix2 p q) = b (ix2 0 q) := by
  refine broadcastTo_apply b broadcasts_S1x4096_S32x4096 (ix2 p q) (ix2 0 q) (fun a => ?_)
  match a with
  | ⟨0, _⟩ => show 0 = if (1 : Nat) = 1 then 0 else _; rw [if_pos rfl]
  | ⟨1, _⟩ => show q.val = if (4096 : Nat) = 1 then 0 else q.val; rw [if_neg (by decide)]

/-! ## The stored block -/

/-- Entry (p, q) of what the body stores: ∑ₖ s(p, k) · u(q, k) + b(0, q). -/
theorem stored_apply (s : Vec Ideal S32x512 .f32) (u : Vec Ideal S4096x512 .f32) (b : Vec Ideal S1x4096 .f32)
    (p : Fin 32) (q : Fin 4096) :
    k0_pay1 (F := Ideal) s u b (ix2 p q) = (∑ k : Fin 512, s (ix2 p k) * u (ix2 q k)) + b (ix2 0 q) := by
  unfold k0_pay1
  rw [addf_apply, product_apply, bias_apply, shapeCast_self]
  simp only [truncf_apply, shapeCast_self]

/-! ## A block as a part of one table -/

/-- The flat result table (32 × 131072) as one function of the scaled style `s` (32 × 512), the flattened weight table
    `U` (131072 × 512) and the flattened bias row `B` (1 × 131072): entry (p, r) is ∑ₖ s(p, k) · U(r, k) + B(0, r). -/
def flatResult (s : Vec Ideal S32x512 .f32) (U : Vec Ideal S131072x512 .f32) (B : Vec Ideal S1x131072 .f32) :
    Vec Ideal S32x131072 .f32 :=
  fun i => (∑ k : Fin 512, s (ix2 (i 0) k) * U (ix2 (i 1) k)) + B (ix2 0 (i 1))

/-- Row `q` of block `n` of the flattened tables is their row 4096·n + q. -/
def rowOf (n : Fin 32) (q : Fin 4096) : Fin 131072 := ⟨n.val * 4096 + q.val, by omega⟩

/-- When `u` and `b` are block `n` of the flattened tables, what the body stores is block `n` of the flat result table:
    its entry (p, q) is the table's entry (p, 4096·n + q). -/
theorem block_entry (s : Vec Ideal S32x512 .f32) (U : Vec Ideal S131072x512 .f32) (B : Vec Ideal S1x131072 .f32)
    (u : Vec Ideal S4096x512 .f32) (b : Vec Ideal S1x4096 .f32) (n : Fin 32)
    (hu : ∀ (q : Fin 4096) (k : Fin 512), u (ix2 q k) = U (ix2 (rowOf n q) k))
    (hb : ∀ q : Fin 4096, b (ix2 0 q) = B (ix2 0 (rowOf n q))) (p : Fin 32) (q : Fin 4096) :
    k0_pay1 (F := Ideal) s u b (ix2 p q) = flatResult s U B (ix2 p (rowOf n q)) := by
  rw [stored_apply, hb]
  unfold flatResult
  simp only [hu]

end Cert.KernelIdeal.Block

end
-- ==== Proof.KernelArray.lean ====
/-
  From the blocks to the flat result table.

  The grid has 32 points. Point t reads the whole scaled style, rows 4096·t … 4096·t + 4095 of the flattened weight table and
  columns 4096·t … 4096·t + 4095 of the flattened bias row, and writes back columns 4096·t … 4096·t + 4095 of the 32 × 131072 result.
  So what point t writes back is block t of ONE table, `flatResult` of the three arrays the region finds; column r lies in
  the block of point r / 4096, so the blocks cover the table and the array ends holding it.
-/
import proofs.«116141_j60309930770489_1_alg».proof.Proof.Gen.KernelIdeal.Frame
import proofs.«116141_j60309930770489_1_alg».proof.Proof.KernelBlock

set_option maxRecDepth 16384

noncomputable section

namespace Cert.KernelIdeal.Array

open Idealize.ShloMosaic Idealize.ShloMosaic.TcCoe Idealize.ShloMosaic.ValueIdx Idealize.SL.Sem
open Cert.KernelIdeal Cert.KernelIdeal.Gen Cert.KernelIdeal.Block
open Idealize.ShloMosaic.Pipeline (Dat Cfg Window)

variable (m : (ℓ : Loc nD τ sig) → Buf (Elt Ideal) ℓ)

theorem zero_offsets : (![0, 0] : Fin 2 → Nat) = fun _ => 0 := funext fun a => by fin_cases a <;> rfl

/-- The block indices at point t: the style window stays at (0, 0), the weight window is at row block t, the bias and
    result windows at column block t. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem point_lt (t : Fin cfg0.N) : t.val < 32 := by
  have h := t.isLt
  have hN : cfg0.N = 32 := N_0
  omega

/-- WHAT POINT t WRITES BACK is block t of the flat result table of the arrays as the region finds them. -/
theorem flushed_eq (c : Dev nD) (t : Fin cfg0.N) :
    (dats m 0 c).flushed 3 t
      = ((cfg0.win 3).blk t).view.read (Elt Ideal) (flatResult (V m c main_v4) (V m c main_v5) (V m c main_v6)) := by
  show (cfg0.win 3).cut (grid0.coords t) ((dats m 0 c).after 3 t) = _
  rw [after0_3]
  unfold out0_3
  rw [View.canon_unit_zero zero_offsets]
  simp only [View.ld_unit_zero (S := S32x512) zero_offsets, View.ld_unit_zero (S := S4096x512) zero_offsets,
    View.ld_unit_zero (S := S1x4096) zero_offsets]
  obtain ⟨e00, e01, e10, e11, e20, e21, e30, e31⟩ := block_indices t
  have ht := point_lt t
  funext j
  revert j
  show ∀ j : S32x4096.Idx, k0_pay1 (F := Ideal) (iblk m c 0 t) (iblk m c 1 t) (iblk m c 2 t) j
    = flatResult (V m c main_v4) (V m c main_v5) (V m c main_v6) (((cfg0.win 3).blk t).view.emb j)
  intro j
  obtain ⟨p, q, rfl⟩ : ∃ (p : Fin 32) (q : Fin 4096), j = ix2 p q := ⟨j 0, j 1, eq_ix2 j⟩
  -- entry (p, q) of the result block is entry (p, 4096·t + q) of the table
  have e3 : ((cfg0.win 3).blk t).view.emb (ix2 p q) = ix2 p (rowOf ⟨t.val, ht⟩ q) := by
    funext a; apply Fin.ext
    match a with
    | ⟨0, _⟩ => show win0_3.index t (0 : Fin 2) * 32 + 1 * p.val = p.val; omega
    | ⟨1, _⟩ => show win0_3.index t (1 : Fin 2) * 4096 + 1 * q.val = t.val * 4096 + q.val; omega
  -- the style block is the whole scaled style
  have e0 : (iblk m c 0 t : Vec Ideal S32x512 .f32) = V m c main_v4 := by
    funext y
    show V m c main_v4 (((cfg0.win 0).blk t).view.emb y) = V m c main_v4 y
    refine congrArg (V m c main_v4) (funext fun a => Fin.ext ?_)
    match a with
    | ⟨0, _⟩ => show win0_0.index t (0 : Fin 2) * 32 + 1 * (y 0).val = (y 0).val; omega
    | ⟨1, _⟩ => show win0_0.index t (1 : Fin 2) * 512 + 1 * (y 1).val = (y 1).val; omega
  rw [e3]
  refine (block_entry (iblk m c 0 t) (V m c main_v5) (V m c main_v6) (iblk m c 1 t) (iblk m c 2 t) ⟨t.val, ht⟩ ?_ ?_ p q).trans ?_
  · -- row q of the weight block is row 4096·t + q of the flattened weight table
    intro q k
    show V m c main_v5 (((cfg0.win 1).blk t).view.emb (ix2 q k)) = V m c main_v5 (ix2 (rowOf ⟨t.val, ht⟩ q) k)
    refine congrArg (V m c main_v5) (funext fun a => Fin.ext ?_)
    match a with
    | ⟨0, _⟩ => show win0_1.index t (0 : Fin 2) * 4096 + 1 * q.val = t.val * 4096 + q.val; omega
    | ⟨1, _⟩ => show win0_1.index t (1 : Fin 2) * 512 + 1 * k.val = k.val; omega
  · -- column q of the bias block is column 4096·t + q of the flattened bias row
    intro q
    show V m c main_v6 (((cfg0.win 2).blk t).view.emb (ix2 0 q)) = V m c main_v6 (ix2 0 (rowOf ⟨t.val, ht⟩ q))
    refine congrArg (V m c main_v6) (funext fun a => Fin.ext ?_)
    match a with
    | ⟨0, _⟩ => show win0_2.index t (0 : Fin 2) * 1 + 1 * 0 = 0; omega
    | ⟨1, _⟩ => show win0_2.index t (1 : Fin 2) * 4096 + 1 * q.val = t.val * 4096 + q.val; omega
  · rw [e0]

/-- An index of the result array is in point t's block iff each coordinate is in the block's range on its axis. -/
theorem mem_block (t : Fin cfg0.N) (i : S32x131072.Idx) :
    i ∈ ((cfg0.win 3).blk t).view.set ↔ ∀ a : Fin 2, win0_3.index t a * S32x4096.size a ≤ (i a).val
      ∧ (i a).val < win0_3.index t a * S32x4096.size a + S32x4096.size a := by
  show i ∈ ((View.whole main_v7).slice (win0_3.rect t)).set ↔ _
  rw [View.set_slice_whole, Rect.mem_set_unit]
  exact Iff.rfl

/-- Column r of the result lies in the block of point r / 4096: the blocks cover the array. -/
theorem covered (i : S32x131072.Idx) :
    ∃ t : Fin cfg0.N, (cfg0.win 3).flush t = true ∧ i ∈ ((cfg0.win 3).blk t).view.set := by
  have hi0 : (i 0).val < 32 := (i 0).isLt
  have hi1 : (i 1).val < 131072 := (i 1).isLt
  have hN : cfg0.N = 32 := N_0
  have hlt : (i 1).val / 4096 < cfg0.N := by omega
  obtain ⟨-, -, -, -, -, -, e30, e31⟩ := block_indices ⟨(i 1).val / 4096, hlt⟩
  refine ⟨⟨(i 1).val / 4096, hlt⟩, flush0_3 _, ?_⟩
  rw [mem_block]
  intro a
  match a with
  | ⟨0, _⟩ =>
    show win0_3.index ⟨(i 1).val / 4096, hlt⟩ (0 : Fin 2) * 32 ≤ (i 0).val
      ∧ (i 0).val < win0_3.index ⟨(i 1).val / 4096, hlt⟩ (0 : Fin 2) * 32 + 32
    omega
  | ⟨1, _⟩ =>
    show win0_3.index ⟨(i 1).val / 4096, hlt⟩ (1 : Fin 2) * 4096 ≤ (i 1).val
      ∧ (i 1).val < win0_3.index ⟨(i 1).val / 4096, hlt⟩ (1 : Fin 2) * 4096 + 4096
    have e : win0_3.index ⟨(i 1).val / 4096, hlt⟩ (1 : Fin 2) = (i 1).val / 4096 := e31
    omega

/-- THE RESULT ARRAY after the region: the flat result table of the arrays the region finds. -/
theorem final (c : Dev nD) :
    (dats m 0 c).arrAt 3 cfg0.N = flatResult (V m c main_v4) (V m c main_v5) (V m c main_v6) :=
  (dats m 0 c).arrAt_eq_of_cover 3 _ (fun t _ => flushed_eq m c t) covered

end Cert.KernelIdeal.Array

end
-- ==== Proof.KernelValue.lean ====
/-
  The kernel program's result as one function of its four arguments.

  Before the region the host scales the style, s = style · (L · 1) with L repeated down the 32 rows, and lays the weight
  tensor (512 × 16 × 16 × 512) out as a 131072 × 512 table and the bias tensor (512 × 16 × 16) as a 1 × 131072 row, keeping
  the row-major order. The region leaves the flat result table of these three (32 × 131072); the host then lays it out
  as 32 × 512 × 16 × 16, again in row-major order. Nothing else writes a buffer the result depends on, and the four
  arguments end as they were.
-/
import proofs.«116141_j60309930770489_1_alg».proof.Proof.Gen.KernelIdeal.Frame
import proofs.«116141_j60309930770489_1_alg».proof.Proof.KernelArray
import Idealize.ShloMosaic.Lib.StableHlo.Run

set_option maxRecDepth 16384

noncomputable section

namespace Cert.KernelIdeal.Result

open Idealize.ShloMosaic Idealize.ShloMosaic.TcCoe Idealize.ShloMosaic.ValueIdx Idealize.SL.Sem Idealize.ShloMosaic.StableHlo
open Cert.KernelIdeal Cert.KernelIdeal.Gen Cert.KernelIdeal.Block Cert.KernelIdeal.Array

variable (m : (ℓ : Loc nD τ sig) → Buf (Elt Ideal) ℓ) (ρ : Dev nD → PrngReg)

/-- The scaled style: style · (L · 1), the scaled L repeated down the rows. -/
def scaledStyle (style : Vec Ideal S32x512 .f32) (L : Vec Ideal S512 .f32) : Vec Ideal S32x512 .f32 :=
  mulf style (broadcastInDim S32x512 ![0, 1] bcast_S1x512_S32x512_0_1 (broadcastInDim S1x512 ![1] bcast_S512_S1x512_1
    (mulf L (broadcastInDim S512 ![] bcast_S_S512 (constant (F := Ideal) S_ .f32 0x3F800000#32)))))

/-- The kernel program's result: the flat result table of the scaled style, the flattened weights and the flattened bias,
    laid out as 32 × 512 × 16 × 16. -/
def kernelResult (style : Vec Ideal S32x512 .f32) (U : Vec Ideal S512x16x16x512 .f32) (L : Vec Ideal S512 .f32)
    (mu : Vec Ideal S512x16x16 .f32) : Vec Ideal S32x512x16x16 .f32 :=
  shapeCast S32x512x16x16
    (flatResult (scaledStyle style L) (shapeCast S131072x512 U shapeCasts_S512x16x16x512_S131072x512)
      (shapeCast S1x131072 mu shapeCasts_S512x16x16_S1x131072))
    shapeCasts_S32x131072_S32x512x16x16

/-! ## What the region finds -/

/-- The style window's array is the scaled style of the arguments. -/
theorem found_style (c : Dev nD) :
    (V m c main_v4 : Vec Ideal S32x512 .f32)
      = scaledStyle (m ((c : Thread nD τ).loc main_arg0)) (m ((c : Thread nD τ).loc main_arg2)) := by
  show StableHlo.after hostOps0 (fun b => m (c, b)) (Proc.devRef .tc main_v4) = _
  after_results
  rfl

/-- The weight window's array is the weight tensor as a 131072 × 512 table. -/
theorem found_weights (c : Dev nD) :
    (V m c main_v5 : Vec Ideal S131072x512 .f32)
      = shapeCast S131072x512 (m ((c : Thread nD τ).loc main_arg1)) shapeCasts_S512x16x16x512_S131072x512 := by
  show StableHlo.after hostOps0 (fun b => m (c, b)) (Proc.devRef .tc main_v5) = _
  after_results
  rfl

/-- The bias window's array is the bias tensor as a 1 × 131072 row. -/
theorem found_bias (c : Dev nD) :
    (V m c main_v6 : Vec Ideal S1x131072 .f32)
      = shapeCast S1x131072 (m ((c : Thread nD τ).loc main_arg3)) shapeCasts_S512x16x16_S1x131072 := by
  show StableHlo.after hostOps0 (fun b => m (c, b)) (Proc.devRef .tc main_v6) = _
  after_results
  rfl

/-! ## What the host makes of what the region leaves -/

/-- The program's result buffer after the last host line. -/
theorem tail_result (c : Dev nD) :
    Pipeline.afterTail₀ cfgs (dats m) 0 (V0 m) [hostOps1] c main_v8
      = kernelResult (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v8) = _
  after_results
  have e := (Pipeline.withArrays_arr spec0 launch0.win.arr_inj c (V0 m c) (fun w => (dats m 0 c).arrAt w cfg0.N) 3).trans
    (final m c)
  rw [found_style, found_weights, found_bias] at e
  unfold kernelResult
  exact congrArg (fun A => shapeCast S32x512x16x16 A shapeCasts_S32x131072_S32x512x16x16) e

/-! ## The run -/

/-- Every weakly fair execution of the kernel program terminates with its result at `kernelResult` of the arguments and
    the arguments unchanged. -/
theorem run : θ_run defs (onTc (τ := τ) (main (F := Ideal))) ⟨m, fun _ => 0, ρ⟩ fun r => ∀ c : Dev nD,
      r.2.mem ((c.tc : Thread nD τ).loc main_v8)
        = kernelResult (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v8 (Pipeline.mem_restRefs_of main_v8 (by decide) (by decide))).trans (tail_result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.Result

end
-- ==== Proof.Spec.lean ====
/-
  The function both programs compute.

  With `sc` the scaled style (32 × 512), `U` the weight tensor (512 × 16 × 16 × 512) and `mu` the bias tensor (512 × 16 × 16):

      h[b, c, r, s] = ∑_d sc[b, d] · U[c, r, s, d] + mu[c, r, s]

  on the extended reals. The sum is a finite sum in a commutative monoid, so neither its order nor its grouping matters
  and nothing here asks the entries to be finite.
-/
import Idealize.ShloMosaic.PureOps.Ideal
import Idealize.ShloMosaic.Lib.ValueIdx

noncomputable section

namespace Cert.Spec

open Idealize.ShloMosaic Idealize.ShloMosaic.ValueIdx

/-- The style projected on every weight vector, plus the bias. -/
def projected (sc : Vec Ideal ⟨2, ![32, 512]⟩ .f32) (U : Vec Ideal ⟨4, ![512, 16, 16, 512]⟩ .f32)
    (mu : Vec Ideal ⟨3, ![512, 16, 16]⟩ .f32) : Vec Ideal ⟨4, ![32, 512, 16, 16]⟩ .f32 :=
  fun i => (∑ d : Fin 512, sc (ix2 (i 0) d) * U (ix4 (i 1) (i 2) (i 3) d)) + mu (ix3 (i 1) (i 2) (i 3))

end Cert.Spec

end
-- ==== Proof.KernelSpec.lean ====
/-
  The kernel program computes the specified function.

  The kernel program's result is the flat result table laid out as 32 × 512 × 16 × 16 in row-major order: entry
  (b, c, r, s) is the table's entry (b, n) with n = (16·c + r)·16 + s. Row n of the flattened weight table is the weight
  vector U[c, r, s, ·] (position n·512 + d on both sides), and column n of the flattened bias row is mu[c, r, s]. So the
  entry is ∑_d sc[b, d] · U[c, r, s, d] + mu[c, r, s].
-/
import proofs.«116141_j60309930770489_1_alg».proof.Proof.KernelValue
import proofs.«116141_j60309930770489_1_alg».proof.Proof.Spec

noncomputable section

namespace Cert.KernelIdeal.Result

open Idealize.ShloMosaic Idealize.ShloMosaic.ValueIdx
open Cert.KernelIdeal Cert.KernelIdeal.Gen Cert.KernelIdeal.Block

/-- The kernel program's result is the specified function of its scaled style, the weights and the bias. -/
theorem kernelResult_eq (style : Vec Ideal S32x512 .f32) (U : Vec Ideal S512x16x16x512 .f32) (L : Vec Ideal S512 .f32)
    (mu : Vec Ideal S512x16x16 .f32) :
    kernelResult style U L mu = Cert.Spec.projected (scaledStyle style L) U mu := by
  funext i
  obtain ⟨b, c, r, s, rfl⟩ : ∃ (b : Fin 32) (c : Fin 512) (r : Fin 16) (s : Fin 16), i = ix4 b c r s :=
    ⟨i 0, i 1, i 2, i 3, eq_ix4 i⟩
  have hc := c.isLt
  have hr := r.isLt
  have hs := s.isLt
  have hb := b.isLt
  -- the flat column of (c, r, s)
  obtain ⟨n, hn⟩ : ∃ n : Fin 131072, n.val = (c.val * 16 + r.val) * 16 + s.val := ⟨⟨(c.val * 16 + r.val) * 16 + s.val, by omega⟩, rfl⟩
  unfold kernelResult
  rw [shapeCast_apply _ shapeCasts_S32x131072_S32x512x16x16 (ix4 b c r s) (ix2 b n) (by
    rw [Shape.rowMajor_val_two, Shape.rowMajor_val_four]
    show b.val * 131072 + n.val = ((b.val * 512 + c.val) * 16 + r.val) * 16 + s.val
    omega)]
  -- row n of the flattened weights is the weight vector at (c, r, s)
  have hU : ∀ d : Fin 512, shapeCast S131072x512 U shapeCasts_S512x16x16x512_S131072x512 (ix2 n d) = U (ix4 c r s d) :=
    fun d => shapeCast_apply U shapeCasts_S512x16x16x512_S131072x512 (ix2 n d) (ix4 c r s d) (by
      rw [Shape.rowMajor_val_four, Shape.rowMajor_val_two]
      show ((c.val * 16 + r.val) * 16 + s.val) * 512 + d.val = n.val * 512 + d.val
      rw [hn])
  -- column n of the flattened bias is the bias at (c, r, s)
  have hmu : shapeCast S1x131072 mu shapeCasts_S512x16x16_S1x131072 (ix2 0 n) = mu (ix3 c r s) :=
    shapeCast_apply mu shapeCasts_S512x16x16_S1x131072 (ix2 0 n) (ix3 c r s) (by
      rw [Shape.rowMajor_val_three, Shape.rowMajor_val_two]
      show (c.val * 16 + r.val) * 16 + s.val = 0 * 131072 + n.val
      omega)
  show (∑ d : Fin 512, scaledStyle style L (ix2 b d) * shapeCast S131072x512 U shapeCasts_S512x16x16x512_S131072x512 (ix2 n d))
      + shapeCast S1x131072 mu shapeCasts_S512x16x16_S1x131072 (ix2 0 n)
    = (∑ d : Fin 512, scaledStyle style L (ix2 b d) * U (ix4 c r s d)) + mu (ix3 c r s)
  rw [hmu]
  simp only [hU]

end Cert.KernelIdeal.Result

end
-- ==== Proof.RefValue.lean ====
/-
  The reference program computes the specified function.

  The reference scales the style, contracts it with the weight tensor along their last axes (one product: the style's
  axis 1 against the weights' axis 3, the result laid out batch first, then the weights' three kept axes), and adds the bias
  tensor repeated over the batch. Read at an index (b, c, r, s) that is ∑_d sc[b, d] · U[c, r, s, d] + mu[c, r, s].
-/
import proofs.«116141_j60309930770489_1_alg».proof.Proof.Gen.ReferenceIdeal.Read
import proofs.«116141_j60309930770489_1_alg».proof.Proof.Spec

noncomputable section

namespace Cert.ReferenceIdeal.RefValue

open Idealize.ShloMosaic Idealize.ShloMosaic.ValueIdx Cert.ReferenceIdeal Cert.ReferenceIdeal.Read

/-- The reference's result is the specified function of its scaled style, the weights and the bias. -/
theorem result_eq (style : Vec Ideal S32x512 .f32) (U : Vec Ideal S512x16x16x512 .f32) (L : Vec Ideal S512 .f32)
    (mu : Vec Ideal S512x16x16 .f32) :
    val_main_v8 (F := Ideal) style U L mu = Cert.Spec.projected (val_main_v4 (F := Ideal) style L) U mu := by
  funext i
  rw [val_main_v8_apply, val_main_v5_apply, val_main_v7_apply, val_main_v6_apply]
  -- the product's left operand is read at (b, d), its right operand at (c, r, s, d)
  have hl : ∀ d : Fin 512, lidx_main_v5 i d = ix2 (i 0) d := fun d => funext fun a => Fin.ext (by
    match a with
    | ⟨0, _⟩ => rfl
    | ⟨1, _⟩ => rfl)
  have hr : ∀ d : Fin 512, ridx_main_v5 i d = ix4 (i 1) (i 2) (i 3) d := fun d => funext fun a => Fin.ext (by
    match a with
    | ⟨0, _⟩ => rfl
    | ⟨1, _⟩ => rfl
    | ⟨2, _⟩ => rfl
    | ⟨3, _⟩ => rfl)
  -- the repeated bias is read at (c, r, s)
  have hm : idx_main_v6 (idx_main_v7 i) = ix3 (i 1) (i 2) (i 3) := funext fun a => Fin.ext (by
    match a with
    | ⟨0, _⟩ => rfl
    | ⟨1, _⟩ => rfl
    | ⟨2, _⟩ => rfl)
  simp only [hl, hr, hm]
  rfl

end Cert.ReferenceIdeal.RefValue

end
-- ==== Proof.lean ====
/-
  The kernel streams the flattened weight table through a 32-point grid: at point t it multiplies the scaled style
  s = style · (L · 1) (32 × 512) by rows 4096·t … 4096·t + 4095 of the weights laid out as 131072 × 512, contracting the last
  axis of both, and adds the matching stretch of the bias laid out as one row; the 32 × 131072 result is then laid out as
  32 × 512 × 16 × 16. The reference contracts the same scaled style with the weight tensor along their last axes and adds the
  bias repeated over the batch. On the extended reals both are

      h[b, c, r, s] = ∑_d s[b, d] · U[c, r, s, d] + mu[c, r, s],

  the kernel's narrowing casts before its product being the identity there and its zero accumulator adding nothing.
  The two programs scale the style by the same operations, so the scaled style is one term on both sides and is never
  opened; the rest is re-indexing: row (16·c + r)·16 + s of the flattened weights is U[c, r, s, ·], and the grid's blocks
  tile the flat result. No law used needs the inputs finite, so the precondition is never opened.

  The three frames are the generated ones (the reference's is its run with the result dropped); the idealization rewrote
  nothing, so what it preserves is trivial.
-/
import proofs.«116141_j60309930770489_1_alg».proof.Defs
import proofs.«116141_j60309930770489_1_alg».proof.Proof.Gen.Kernel
import proofs.«116141_j60309930770489_1_alg».proof.Proof.Gen.Kernel.Skeleton
import proofs.«116141_j60309930770489_1_alg».proof.Proof.Gen.Kernel.Launch
import proofs.«116141_j60309930770489_1_alg».proof.Proof.Gen.Kernel.Points
import proofs.«116141_j60309930770489_1_alg».proof.Proof.Gen.Kernel.Frame
import proofs.«116141_j60309930770489_1_alg».proof.Proof.Gen.KernelIdeal
import proofs.«116141_j60309930770489_1_alg».proof.Proof.Gen.KernelIdeal.Skeleton
import proofs.«116141_j60309930770489_1_alg».proof.Proof.Gen.KernelIdeal.Launch
import proofs.«116141_j60309930770489_1_alg».proof.Proof.Gen.KernelIdeal.Points
import proofs.«116141_j60309930770489_1_alg».proof.Proof.Gen.KernelIdeal.Frame
import proofs.«116141_j60309930770489_1_alg».proof.Proof.Gen.ReferenceIdeal
import proofs.«116141_j60309930770489_1_alg».proof.Proof.Gen.ReferenceIdeal.Run
import proofs.«116141_j60309930770489_1_alg».proof.Proof.Gen.ReferenceIdeal.Read
import proofs.«116141_j60309930770489_1_alg».proof.Proof.Gen.Pre_finite_inputs
import proofs.«116141_j60309930770489_1_alg».proof.Proof.KernelSpec
import proofs.«116141_j60309930770489_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both programs scale the style by the same operations on the same literal. -/
theorem scaled_same (style : Vec Ideal Cert.KernelIdeal.S32x512 .f32) (L : Vec Ideal Cert.KernelIdeal.S512 .f32) :
    Cert.KernelIdeal.Result.scaledStyle style L = Cert.ReferenceIdeal.Read.val_main_v4 (F := Ideal) style L := rfl

/-- From memories agreeing on the four arguments both programs end at the specified function of them. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v8_eq _ _ _ _).trans ?_
  refine (Cert.ReferenceIdeal.RefValue.result_eq _ _ _ _).trans ?_
  refine Eq.trans ?_ (Cert.KernelIdeal.Result.kernelResult_eq _ _ _ _).symm
  rw [scaled_same]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
